-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128 : Shape := ⟨3, ![8, 128, 128]⟩
abbrev S8x128x128x3 : Shape := ⟨4, ![8, 128, 128, 3]⟩
abbrev S256x128 : Shape := ⟨2, ![256, 128]⟩
abbrev S1x128 : Shape := ⟨2, ![1, 128]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel
  bcast_S_S8x128x128x3 : S_.BroadcastsInDim S8x128x128x3 (![] : Fin 0 → Fin S8x128x128x3.rank)
  reducesTo_S8x128x128x3_S_d0_1_2_3 : S8x128x128x3.ReducesTo [0, 1, 2, 3] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S8x128x128 .f32) (main_arg1 : FVec F S8x128x128x3 .f32) (main_arg2 : FVec F S256x128 .f32) (main_arg3 : FVec F S1x128 .f32) : IVec S_ 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  let main_v4 : FVec F S8x128x128x3 .f32 := Host.absf main_arg1
  let main_cst_0 : FVec F S_ .f32 := constant S_ .f32 0x7F800000#32
  let main_v5 : FVec F S8x128x128x3 .f32 := broadcastInDim S8x128x128x3 ![] bcast_S_S8x128x128x3 main_cst_0
  let main_v6 : IVec S8x128x128x3 1 := cmpf .olt main_v4 main_v5
  let main_c_1 : IVec S_ 1 := constantI S_ 1 1#1
  let main_v7 : IVec S_ 1 := (fun x v => Host.reduce IntOp.andi x v reducesTo_S8x128x128x3_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S8x128x128 : Shape := ⟨3, ![8, 128, 128]⟩
abbrev S8x128x128x3 : Shape := ⟨4, ![8, 128, 128, 3]⟩
abbrev S256x128 : Shape := ⟨2, ![256, 128]⟩
abbrev S1x128 : Shape := ⟨2, ![1, 128]⟩
abbrev S8x128x128x3x128 : Shape := ⟨5, ![8, 128, 128, 3, 128]⟩
abbrev S1x128x128 : Shape := ⟨3, ![1, 128, 128]⟩
abbrev S1x32x128 : Shape := ⟨3, ![1, 32, 128]⟩
abbrev S1x128x32x3 : Shape := ⟨4, ![1, 128, 32, 3]⟩
abbrev S1x128x32x3x128 : Shape := ⟨5, ![1, 128, 32, 3, 128]⟩
abbrev S128x128 : Shape := ⟨2, ![128, 128]⟩
abbrev S32x128 : Shape := ⟨2, ![32, 128]⟩
abbrev S128 : Shape := ⟨1, ![128]⟩
abbrev S128x1x128 : Shape := ⟨3, ![128, 1, 128]⟩
abbrev S128x32x128 : Shape := ⟨3, ![128, 32, 128]⟩
abbrev S1x1x128 : Shape := ⟨3, ![1, 1, 128]⟩
abbrev S128x32x3 : Shape := ⟨3, ![128, 32, 3]⟩
abbrev S128x32x1x128 : Shape := ⟨4, ![128, 32, 1, 128]⟩
abbrev S128x32x3x1 : Shape := ⟨4, ![128, 32, 3, 1]⟩
abbrev S128x32x3x128 : Shape := ⟨4, ![128, 32, 3, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x128x128, .f32⟩
  | .hbm, ⟨1, _⟩ => ⟨S8x128x128x3, .f32⟩
  | .hbm, ⟨2, _⟩ => ⟨S256x128, .f32⟩
  | .hbm, ⟨3, _⟩ => ⟨S1x128, .f32⟩
  | .hbm, ⟨4, _⟩ => ⟨S8x128x128x3x128, .f32⟩
  | .local _ .vmem, ⟨0, _⟩ => ⟨S256x128, .f32⟩
  | .local _ .vmem, ⟨1, _⟩ => ⟨S1x128, .f32⟩
  | .local _ .vmem, ⟨2, _⟩ => ⟨S1x128x128, .f32⟩
  | .local _ .vmem, ⟨3, _⟩ => ⟨S1x128x128, .f32⟩
  | .local _ .vmem, ⟨4, _⟩ => ⟨S1x32x128, .f32⟩
  | .local _ .vmem, ⟨5, _⟩ => ⟨S1x32x128, .f32⟩
  | .local _ .vmem, ⟨6, _⟩ => ⟨S1x128x32x3, .f32⟩
  | .local _ .vmem, ⟨7, _⟩ => ⟨S1x128x32x3, .f32⟩
  | .local _ .vmem, ⟨8, _⟩ => ⟨S1x128x32x3x128, .f32⟩
  | .local _ .vmem, ⟨9, _⟩ => ⟨S1x128x32x3x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x32x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S128 : S1x128.ShapeCasts S128
  bitsLt_bf16_f32 : FTy.bits .bf16 < FTy.bits .f32
  shapeCasts_S128x128_S128x1x128 : S128x128.ShapeCasts S128x1x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  shapeCasts_S128_S1x1x128 : S128.ShapeCasts S1x1x128
  broadcasts_S1x1x128_S128x32x128 : S1x1x128.Broadcasts S128x32x128
  inb_S1x128x32x3_S1x128x32x3_0_0_0_0 : ∀ a, (![0, 0, 0, 0] : Fin 4 → Nat) a + S1x128x32x3.size a ≤ S1x128x32x3.size a
  h_S1x128x32x3 : 0 < S1x128x32x3.numel
  shapeCasts_S1x128x32x3_S128x32x3 : S1x128x32x3.ShapeCasts S128x32x3
  shapeCasts_S128x32x128_S128x32x1x128 : S128x32x128.ShapeCasts S128x32x1x128
  shapeCasts_S128x32x3_S128x32x3x1 : S128x32x3.ShapeCasts S128x32x3x1
  broadcasts_S128x32x1x128_S128x32x3x128 : S128x32x1x128.Broadcasts S128x32x3x128
  broadcasts_S128x32x3x1_S128x32x3x128 : S128x32x3x1.Broadcasts S128x32x3x128
  inb_S1x128x32x3x128_S1x128x32x3x128_0_0_0_0_0 : ∀ a, (![0, 0, 0, 0, 0] : Fin 5 → Nat) a + S1x128x32x3x128.size a ≤ S1x128x32x3x128.size a
  h_S1x128x32x3x128 : 0 < S1x128x32x3x128.numel
  shapeCasts_S1x128x32x3x128_S128x32x3x128 : S1x128x32x3x128.ShapeCasts S128x32x3x128
  shapeCasts_S128x32x3x128_S1x128x32x3x128 : S128x32x3x128.ShapeCasts S1x128x32x3x128
  dot_S128x128_S128x128_S128x128_1_0_0_1_n_n_wf : DotDims.WF S128x128 S128x128 S128x128 [1] [0] [0] [1] [] []
  dot_S32x128_S128x128_S32x128_1_0_0_1_n_n_wf : DotDims.WF S32x128 S128x128 S32x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S8x128x128.size a
  hwx0_3 : ∀ i : grid0.Coords, EltTy.bits .f32 = 32 ∨ (Rect.block (s := S8x128x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x3.size a ≤ S8x128x128x3.size a
  hwx0_4 : ∀ i : grid0.Coords, EltTy.bits .f32 = 32 ∨ (Rect.block (s := S8x128x128x3) S1x128x32x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32x3x128.size a ≤ S8x128x128x3x128.size a
  hwx0_5 : ∀ i : grid0.Coords, EltTy.bits .f32 = 32 ∨ (Rect.block (s := S8x128x128x3x128) S1x128x32x3x128.size (cc0_transform_5 i) (hinb0_5 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf

abbrev win0_0 : Pipeline.Window sig grid0 :=
  Pipeline.Window.ofSpec (Memref.whole main_arg2) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x128x32x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128x32x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x128 : Shape := ⟨3, ![8, 128, 128]⟩
abbrev S8x128x128x3 : Shape := ⟨4, ![8, 128, 128, 3]⟩
abbrev S256x128 : Shape := ⟨2, ![256, 128]⟩
abbrev S1x128 : Shape := ⟨2, ![1, 128]⟩
abbrev S128x128 : Shape := ⟨2, ![128, 128]⟩
abbrev S8x128x1x128 : Shape := ⟨4, ![8, 128, 1, 128]⟩
abbrev S8x1x128x128 : Shape := ⟨4, ![8, 1, 128, 128]⟩
abbrev S8x128x128x128 : Shape := ⟨4, ![8, 128, 128, 128]⟩
abbrev S1x1x1x128 : Shape := ⟨4, ![1, 1, 1, 128]⟩
abbrev S8x128x128x1x128 : Shape := ⟨5, ![8, 128, 128, 1, 128]⟩
abbrev S8x128x128x3x1 : Shape := ⟨5, ![8, 128, 128, 3, 1]⟩
abbrev S8x128x128x3x128 : Shape := ⟨5, ![8, 128, 128, 3, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S8x128x128x3, .f32⟩
  | .hbm, ⟨2, _⟩ => ⟨S256x128, .f32⟩
  | .hbm, ⟨3, _⟩ => ⟨S1x128, .f32⟩
  | .hbm, ⟨4, _⟩ => ⟨S128x128, .f32⟩
  | .hbm, ⟨5, _⟩ => ⟨S128x128, .f32⟩
  | .hbm, ⟨6, _⟩ => ⟨S8x128x128, .f32⟩
  | .hbm, ⟨7, _⟩ => ⟨S8x128x128, .f32⟩
  | .hbm, ⟨8, _⟩ => ⟨S8x128x1x128, .f32⟩
  | .hbm, ⟨9, _⟩ => ⟨S8x1x128x128, .f32⟩
  | .hbm, ⟨10, _⟩ => ⟨S8x128x128x128, .f32⟩
  | .hbm, ⟨11, _⟩ => ⟨S8x128x128x128, .f32⟩
  | .hbm, ⟨12, _⟩ => ⟨S8x128x128x128, .f32⟩
  | .hbm, ⟨13, _⟩ => ⟨S1x1x1x128, .f32⟩
  | .hbm, ⟨14, _⟩ => ⟨S8x128x128x128, .f32⟩
  | .hbm, ⟨15, _⟩ => ⟨S8x128x128x128, .f32⟩
  | .hbm, ⟨16, _⟩ => ⟨S8x128x128x1x128, .f32⟩
  | .hbm, ⟨17, _⟩ => ⟨S8x128x128x3x1, .f32⟩
  | .hbm, ⟨18, _⟩ => ⟨S8x128x128x3x128, .f32⟩
  | .hbm, ⟨19, _⟩ => ⟨S8x128x128x3x128, .f32⟩
  | .hbm, ⟨20, _⟩ => ⟨S8x128x128x3x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x128x128_S8x128x1x128_0_1_3 : S8x128x128.BroadcastsInDim S8x128x1x128 (![0, 1, 3] : Fin 3 → Fin S8x128x1x128.rank)
  bcast_S8x128x128_S8x1x128x128_0_2_3 : S8x128x128.BroadcastsInDim S8x1x128x128 (![0, 2, 3] : Fin 3 → Fin S8x1x128x128.rank)
  bcast_S8x128x1x128_S8x128x128x128_0_1_2_3 : S8x128x1x128.BroadcastsInDim S8x128x128x128 (![0, 1, 2, 3] : Fin 4 → Fin S8x128x128x128.rank)
  bcast_S8x1x128x128_S8x128x128x128_0_1_2_3 : S8x1x128x128.BroadcastsInDim S8x128x128x128 (![0, 1, 2, 3] : Fin 4 → Fin S8x128x128x128.rank)
  bcast_S1x128_S1x1x1x128_2_3 : S1x128.BroadcastsInDim S1x1x1x128 (![2, 3] : Fin 2 → Fin S1x1x1x128.rank)
  bcast_S1x1x1x128_S8x128x128x128_0_1_2_3 : S1x1x1x128.BroadcastsInDim S8x128x128x128 (![0, 1, 2, 3] : Fin 4 → Fin S8x128x128x128.rank)
  bcast_S8x128x128x128_S8x128x128x1x128_0_1_2_4 : S8x128x128x128.BroadcastsInDim S8x128x128x1x128 (![0, 1, 2, 4] : Fin 4 → Fin S8x128x128x1x128.rank)
  bcast_S8x128x128x3_S8x128x128x3x1_0_1_2_3 : S8x128x128x3.BroadcastsInDim S8x128x128x3x1 (![0, 1, 2, 3] : Fin 4 → Fin S8x128x128x3x1.rank)
  bcast_S8x128x128x1x128_S8x128x128x3x128_0_1_2_3_4 : S8x128x128x1x128.BroadcastsInDim S8x128x128x3x128 (![0, 1, 2, 3, 4] : Fin 5 → Fin S8x128x128x3x128.rank)
  bcast_S8x128x128x3x1_S8x128x128x3x128_0_1_2_3_4 : S8x128x128x3x1.BroadcastsInDim S8x128x128x3x128 (![0, 1, 2, 3, 4] : Fin 5 → Fin S8x128x128x3x128.rank)
  dot_S8x128x128_S128x128_S8x128x128_2_0_01_1_n_n_wf : DotDims.WF S8x128x128 S128x128 S8x128x128 [2] [0] [0, 1] [1] [] []

variable [Facts₀]

def dot_S8x128x128_S128x128_S8x128x128_2_0_01_1_n_n : DotDims S8x128x128 S128x128 S8x128x128 where
  lhsContracting := [2]
  rhsContracting := [0]
  lhsNonContracting := [0, 1]
  rhsNonContracting := [1]
  lhsBatch := []
  rhsBatch := []
  wf := dot_S8x128x128_S128x128_S8x128x128_2_0_01_1_n_n_wf

class Facts : Prop extends Facts₀ where

variable [Facts]
-- ==== Proof.Spec.lean ====
/-
  The function both programs compute, stated once over literal shapes and free of either program.

  For a batch of `8` graphs with `128` nodes each: node features `h : [8, 128, 128]`, per-pair direction components
  `d : [8, 128, 128, 3]`, a weight matrix `W : [256, 128]` read as two stacked halves (rows `0 … 127` act on the first
  node of a pair, rows `128 … 255` on the second) and a bias row `β : [1, 128]`. The pair feature of nodes `i`, `j` in
  channel `k` is

      p[b, i, j, k] = (∑ f, h[b, i, f] · W[f, k]) + (∑ f, h[b, j, f] · W[128 + f, k]) + β[0, k],

  and the result scales it by each direction component: `out[b, i, j, c, k] = p[b, i, j, k] · d[b, i, j, c]`.
  Everything is read on the extended reals; the grouping of the two additions is the one written here, which is the one
  both programs use, so no law beyond the sums' own is needed to compare them.
-/
import Idealize.ShloMosaic.PureOps.Ideal
import Idealize.ShloMosaic.Lib.ValueIdx

noncomputable section

namespace Cert.PairSpec

open Idealize.ShloMosaic Idealize.ShloMosaic.ValueIdx

/-- Row `f` of the upper half of the weight matrix: row `f` of the whole. -/
abbrev upper (f : Fin 128) : Fin 256 := ⟨f.val, by have := f.isLt; omega⟩

/-- Row `f` of the lower half of the weight matrix: row `128 + f` of the whole. -/
abbrev lower (f : Fin 128) : Fin 256 := ⟨128 + f.val, by have := f.isLt; omega⟩

/-- One entry of the result, over explicit coordinates: the pair feature of nodes `i` and `j` of graph `b` in channel
    `k` — node `i` through the upper half of `W`, node `j` through the lower half, plus the bias — times direction
    component `c` of the pair. -/
def entry (h : (⟨3, ![8, 128, 128]⟩ : Shape).Idx → EReal) (d : (⟨4, ![8, 128, 128, 3]⟩ : Shape).Idx → EReal)
    (W : (⟨2, ![256, 128]⟩ : Shape).Idx → EReal) (β : (⟨2, ![1, 128]⟩ : Shape).Idx → EReal)
    (b : Fin 8) (i j : Fin 128) (c : Fin 3) (k : Fin 128) : EReal :=
  ((∑ f : Fin 128, h (ix3 b i f) * W (ix2 (upper f) k)) + (∑ f : Fin 128, h (ix3 b j f) * W (ix2 (lower f) k))
    + β (ix2 (0 : Fin 1) k)) * d (ix4 b i j c)

/-- The whole result array `[8, 128, 128, 3, 128]`: `entry` at an index's five coordinates. -/
def features (h : (⟨3, ![8, 128, 128]⟩ : Shape).Idx → EReal) (d : (⟨4, ![8, 128, 128, 3]⟩ : Shape).Idx → EReal)
    (W : (⟨2, ![256, 128]⟩ : Shape).Idx → EReal) (β : (⟨2, ![1, 128]⟩ : Shape).Idx → EReal) :
    (⟨5, ![8, 128, 128, 3, 128]⟩ : Shape).Idx → EReal :=
  fun y => entry h d W β (y 0) (y 1) (y 2) (y 3) (y 4)

theorem features_ix5 (h : (⟨3, ![8, 128, 128]⟩ : Shape).Idx → EReal) (d : (⟨4, ![8, 128, 128, 3]⟩ : Shape).Idx → EReal)
    (W : (⟨2, ![256, 128]⟩ : Shape).Idx → EReal) (β : (⟨2, ![1, 128]⟩ : Shape).Idx → EReal)
    (b : Fin 8) (i j : Fin 128) (c : Fin 3) (k : Fin 128) :
    features h d W β (ix5 b i j c k) = entry h d W β b i j c k := rfl

end Cert.PairSpec

end
-- ==== Proof.RegionK.lean ====
/-
  The frame of `Kernel`'s one pipelined region, first half: what the region finds, and what one grid point does.

  The region runs a grid of `8 × 4` points. At point `(g, s)` it stages the whole weight matrix and the bias row (both
  fetched once, at the first point), graph `g`'s node features `[1, 128, 128]` (window 2, the first node of a pair),
  the slab of `32` of that same graph's nodes numbered `32 s … 32 s + 31` (window 3, the second node of a pair: the SAME
  argument array as window 2, handed to the region twice), the matching slab `[1, 128, 32, 3]` of direction components,
  and writes back the slab `[1, 128, 32, 3, 128]` of the result. The body loads the five input blocks whole, loads the
  output buffer too (a value it never uses), and stores one value over the whole output buffer.

  Here: the arrays as the region finds them, each input window's buffer holding its block at every point whether or
  not that point fetched it, and the body's triple on whole staging buffers — the inputs kept, the output buffer left
  at the one stored value, a function of the five input blocks alone.
-/
import proofs.«133521_j9955734192541_1_alg».proof.Proof.Gen.Kernel.Launch
import proofs.«133521_j9955734192541_1_alg».proof.Proof.Gen.Kernel.Skeleton
import proofs.«133521_j9955734192541_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: the launch contents, the program being the region alone. -/
abbrev V (c : Dev nD) (b : Ref sig .tc) : Buf (Elt F) ((c : Thread nD τ).loc b) := m ((c : Thread nD τ).loc b)

/-- The program up to its region is the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weight matrix's buffer holds the whole matrix at every point: fetched at the first, and its block index never
    moves. For any proof data on the entry arrays whose body leaves the block in place. -/
theorem holds0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bias row's buffer likewise. -/
theorem holds1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A graph's node features (first node of a pair): fetched when the graph changes, every fourth point, and held
    in between, the block index unmoved. -/
theorem holds2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The slab of second nodes: fetched at every point. -/
theorem holds3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The slab of direction components: fetched at every point. -/
theorem holds4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rH : Rect S1x128x128 := Rect.unit (s := S1x128x128) ![0, 0, 0] S1x128x128.size inb_S1x128x128_S1x128x128_0_0_0
abbrev rS : Rect S1x32x128 := Rect.unit (s := S1x32x128) ![0, 0, 0] S1x32x128.size inb_S1x32x128_S1x32x128_0_0_0
abbrev rD : Rect S1x128x32x3 := Rect.unit (s := S1x128x32x3) ![0, 0, 0, 0] S1x128x32x3.size inb_S1x128x32x3_S1x128x32x3_0_0_0_0
abbrev rO : Rect S1x128x32x3x128 := Rect.unit (s := S1x128x32x3x128) ![0, 0, 0, 0, 0] S1x128x32x3x128.size inb_S1x128x32x3x128_S1x128x32x3x128_0_0_0_0_0

/-! ## What the body leaves in the output buffer -/

/-- The output buffer after the body, from the five input blocks (the weight matrix `w`, the bias row `b`, the first
    nodes' features `h`, the second nodes' slab `s`, the directions `d`): its one store, of the body's one value. -/
def slab (w : Vec F S256x128 .f32) (b : Vec F S1x128 .f32) (h : Vec F S1x128x128 .f32) (s : Vec F S1x32x128 .f32) (d : Vec F S1x128x32x3 .f32) :
    Vec F S1x128x32x3x128 .f32 :=
  View.canon [⟨rO, k0_pay1 (View.ld h rH) (View.ld s rS) (View.ld w rW) (View.ld b rB) (View.ld d rD)⟩]

/-- The one store covers the buffer. -/
theorem slab_cover (p0 : Vec F S1x128x32x3x128 .f32) (y : S1x128x32x3x128.Idx) :
    ∃ pc ∈ ([⟨rO, p0⟩] : List (View.Piece (Elt F) S1x128x32x3x128 .f32)), y ∈ pc.1.set :=
  View.cover_of_tiled [⟨rO, p0⟩] S1x128x32x3x128.size (by rfl) y

/-! ## The body's triple -/

set_option maxHeartbeats 1000000 in
/-- The body on whole staging buffers, the five inputs' at the contents `w b h s d` and the output's at anything,
    runs to the continuation with the inputs' as they were and the output's at `slab w b h s d`. -/
theorem sound_kernel (c : Dev nD) (E : Set ℕ) (i : grid0.Coords)
    (arg2 : Memref sig .tc .vmem S256x128 .f32) (harg2 : arg2.IsWhole) (arg3 : Memref sig .tc .vmem S1x128 .f32) (harg3 : arg3.IsWhole)
    (arg4 : Memref sig .tc .vmem S1x128x128 .f32) (harg4 : arg4.IsWhole) (arg5 : Memref sig .tc .vmem S1x32x128 .f32) (harg5 : arg5.IsWhole)
    (arg6 : Memref sig .tc .vmem S1x128x32x3 .f32) (harg6 : arg6.IsWhole) (arg7 : Memref sig .tc .vmem S1x128x32x3x128 .f32) (harg7 : arg7.IsWhole)
    (w : Vec F S256x128 .f32) (b : Vec F S1x128 .f32) (h : Vec F S1x128x128 .f32) (s : Vec F S1x32x128 .f32) (d : Vec F S1x128x32x3 .f32)
    (K : PUnit → sProp 𝕄) :
    iprop(owns (c : Thread nD τ) arg2 fullShare w ∗ owns (c : Thread nD τ) arg3 fullShare b ∗ owns (c : Thread nD τ) arg4 fullShare h
        ∗ owns (c : Thread nD τ) arg5 fullShare s ∗ owns (c : Thread nD τ) arg6 fullShare d ∗ (∃ o, owns (c : Thread nD τ) arg7 fullShare o)
        ∗ (iprop(owns (c : Thread nD τ) arg2 fullShare w ∗ owns (c : Thread nD τ) arg3 fullShare b ∗ owns (c : Thread nD τ) arg4 fullShare h
            ∗ owns (c : Thread nD τ) arg5 fullShare s ∗ owns (c : Thread nD τ) arg6 fullShare d
            ∗ owns (c : Thread nD τ) arg7 fullShare (slab w b h s d)) -∗ K ⟨⟩))
      ⊢ wp frame (wpE (defs₀ (F := F)) Variants.none c none) E (cc0__gnn_kernel i arg2 harg2 arg3 harg3 arg4 harg4 arg5 harg5 arg6 harg6 arg7 harg7) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%o, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (slab_cover _)

end Cert.Kernel.Region

end
-- ==== Proof.LaunchK.lean ====
/-
  The frame of `Kernel`'s one pipelined region, second half: the proof data, the launch, and the frame claim.

  Two of the region's windows read ONE argument array — the node features serve as the first node of a pair through
  window 2 and as the second through window 3 — so the region cannot hold that array once per window at the full share.
  The proof data deal it out: window 2 holds the array at the left half of the full share, window 3 at the right half;
  both are inputs, neither is written, and the two halves compose to the whole. Every other array has one window and
  is held whole. At entry the buffers behind the arrays, each whole at the full share, are split accordingly
  (`arrays_of_buffers`); at exit each window's array is read back at its own share, the two windows on the node
  features reading the same, unchanged, contents.

  The body draws no random bits and names no scratch, semaphore or transfer of its own, so the invariant between points
  is only the core's scoped buffers that are no staging buffer, passed through untouched; nothing is owed.
-/
import proofs.«133521_j9955734192541_1_alg».proof.Proof.RegionK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The core's scoped buffers that are no staging buffer: all the body's invariant holds. -/
abbrev rest (c : Dev nD) : sProp 𝕄 :=
  Pipeline.scopedRest (Ix := Unit) (Name := ℕ) (U := UR sig nD τ) (Lvl := ℕ) (Val := Elt F) spec0 c

/-- The proof data of the one pipeline on core `c`: the arrays as the region finds them; after the body at point `t`
    each input's buffer at its block and the output's at `slab` of the five input blocks; the node features dealt to
    windows 2 and 3 by halves of the full share, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => slab (iblk m c 0 t) (iblk m c 1 t) (iblk m c 2 t) (iblk m c 3 t) (iblk m c 4 t)
  Φ _ := rest c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = slab (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  holds0 m (dats m 0 c) (A_eq m c 0) (after0 m c) t d
theorem before1 (c : Dev nD) (t : Fin cfg0.N) (d) : (dats m 0 c).before 1 t d = iblk m c 1 t :=
  holds1 m (dats m 0 c) (A_eq m c 1) (after1 m c) t d
theorem before2 (c : Dev nD) (t : Fin cfg0.N) (d) : (dats m 0 c).before 2 t d = iblk m c 2 t :=
  holds2 m (dats m 0 c) (A_eq m c 2) (after2 m c) t d
theorem before3 (c : Dev nD) (t : Fin cfg0.N) (d) : (dats m 0 c).before 3 t d = iblk m c 3 t :=
  holds3 m (dats m 0 c) (A_eq m c 3) (after3 m c) t d
theorem before4 (c : Dev nD) (t : Fin cfg0.N) (d) : (dats m 0 c).before 4 t d = iblk m c 4 t :=
  holds4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: each input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays, window by window, and their split at entry -/

/-- The proof data's arrays written out: each window's array is a whole buffer, the node features' held by halves. -/
theorem arrays_eq (c : Dev nD) (G : (w : Fin cfg0.W) → Buf (Elt F) ((cfg0.win w).arr.view.loc (c.tc : Thread nD τ))) :
    (dats m 0 c).arrays G = (iprop(
        (((c.tc : Thread nD τ).loc main_arg2) ↦{fullShare} G 0)
      ∗ (((c.tc : Thread nD τ).loc main_arg3) ↦{fullShare} G 1)
      ∗ (((c.tc : Thread nD τ).loc main_arg0) ↦{fullShare.left} G 2)
      ∗ (((c.tc : Thread nD τ).loc main_arg0) ↦{fullShare.right} G 3)
      ∗ (((c.tc : Thread nD τ).loc main_arg1) ↦{fullShare} G 4)
      ∗ (((c.tc : Thread nD τ).loc main_v0) ↦{fullShare} G 5)) : sProp 𝕄) := by
  unfold Dat.arrays
  rw [bigSep_W0, (arr_whole0 0).set_eq_univ, (arr_whole0 1).set_eq_univ, (arr_whole0 2).set_eq_univ,
    (arr_whole0 4).set_eq_univ, (arr_whole0 5).set_eq_univ]
  rfl

/-- The distinct buffers behind the six windows' arrays are five, listed. -/
theorem buffers_eq (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄) = iprop(
        (((c.tc : Thread nD τ).loc main_arg2) ↦{fullShare} X main_arg2)
      ∗ (((c.tc : Thread nD τ).loc main_arg3) ↦{fullShare} X main_arg3)
      ∗ (((c.tc : Thread nD τ).loc main_arg0) ↦{fullShare} X main_arg0)
      ∗ (((c.tc : Thread nD τ).loc main_arg1) ↦{fullShare} X main_arg1)
      ∗ (((c.tc : Thread nD τ).loc main_v0) ↦{fullShare} X main_v0)) :=
  bigSep_eq_bigSepL_of_eq [main_arg2, main_arg3, main_arg0, main_arg1, main_v0] (by decide) (by decide) _

/-- At entry: the five distinct buffers behind the six windows' arrays, each whole at the full share, make the proof
    data's arrays — the node features' full share parted into its two halves, one per window on it. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, buffers_eq]
  iintro ⟨HW, HB, HH, HD, HO⟩
  ihave HH2 := (pointsTo_share (PosShare.mem_left_op_right fullShare)).1 $$ HH
  icases HH2 with ⟨HHl, HHr⟩
  isplitl [HW]; · iexact HW
  isplitl [HB]; · iexact HB
  isplitl [HHl]; · iexact HHl
  isplitl [HHr]; · iexact HHr
  isplitl [HD]; · iexact HD
  iexact HO

/-! ## The run -/

/-- Into the region: the invariant is the scoped rest the launch hands over. -/
theorem rest_in (c : Dev nD) : (iprop(emp ∗ rest c) : sProp 𝕄) ⊢ (dats m 0 c).Φ 0 := by
  show iprop(emp ∗ rest c) ⊢ rest c
  iintro ⟨-, H⟩
  iexact H

/-- Out of the region: it is handed back. -/
theorem rest_out (c : Dev nD) : (dats m 0 c).Φ (Fin.last cfg0.N) ⊢ (iprop(emp ∗ rest c) : sProp 𝕄) := by
  show rest c ⊢ iprop(emp ∗ rest c)
  iintro H
  isplitr
  · iempintro
  · iexact H

/-- The region leaves nothing beside the arrays to read back. -/
theorem nothing_else (c : Dev nD) (s' : Phys nD τ sig (Elt F)) :
    (iprop(emp ∗ emp ∗ SI s') : sProp 𝕄) ⊢ |={Set.univ}=> iprop(⌜True⌝ ∗ SI s') := by
  iintro ⟨-, -, HSI⟩
  imodintro
  isplitr
  · ipureintro; trivial
  · iexact HSI

/-- No unscoped buffer is left over: every one is a window's array. -/
theorem no_unscoped_rest (c : Dev nD) :
    (Pipeline.unscopedRest (Ix := Unit) (Name := ℕ) (U := UR sig nD τ) (Lvl := ℕ) spec0 c (V m c) : sProp 𝕄) ⊢ iprop(emp ∗ emp) := by
  rw [unscopedRest0_eq]
  iintro -
  isplitr <;> iempintro

/-- After the run every window's array holds what the library computes from the proof data. -/
def RunPost (r : PUnit × MemSt nD τ sig (Elt F)) : Prop :=
  ∀ c : Dev nD, ∀ w : Fin cfg0.W, r.2.mem (((cfg0).spec w).arr.view.loc (c.tc : Thread nD τ)) = (dats m 0 c).arrAt w cfg0.N

set_option backward.isDefEq.respectTransparency.types false in
/-- At the compiled mesh, for any values, from any memory with zero counters: every weakly fair execution of the
    program terminates, nothing faulting, with every array of the pipeline at the proof data's final contents. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_of_buffers m)
    (X := fun _ => iprop(emp)) (Y := fun _ => iprop(emp)) (Z := fun _ => iprop(emp))
    (hX := no_unscoped_rest m) (hin := rest_in m) (hout := rest_out m)
    (QY := fun _ _ => True) (hY := nothing_else)
    (hQ := fun s h c w => (h c).1 w)

/-! ## The frame claim -/

/-- The frame claim's post: the four argument arrays end as launched — each an input array of the region, never
    written, so its final contents are its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 2).trans (((dats m 0 c).arrAt_in 2 rfl _).trans (A_eq m c 2)),
     (h c 4).trans (((dats m 0 c).arrAt_in 4 rfl _).trans (A_eq m c 4)),
     (h c 0).trans (((dats m 0 c).arrAt_in 0 rfl _).trans (A_eq m c 0)),
     (h c 1).trans (((dats m 0 c).arrAt_in 1 rfl _).trans (A_eq m c 1))⟩) (run_main m ρ)

end Cert.Kernel.Region

end
-- ==== Proof.RegionKI.lean ====
/-
  The frame of `KernelIdeal`'s one pipelined region, first half: what the region finds, and what one grid point does.

  The region runs a grid of `8 × 4` points. At point `(g, s)` it stages the whole weight matrix and the bias row (both
  fetched once, at the first point), graph `g`'s node features `[1, 128, 128]` (window 2, the first node of a pair),
  the slab of `32` of that same graph's nodes numbered `32 s … 32 s + 31` (window 3, the second node of a pair: the SAME
  argument array as window 2, handed to the region twice), the matching slab `[1, 128, 32, 3]` of direction components,
  and writes back the slab `[1, 128, 32, 3, 128]` of the result. The body loads the five input blocks whole, loads the
  output buffer too (a value it never uses), and stores one value over the whole output buffer.

  Here: the arrays as the region finds them, each input window's buffer holding its block at every point whether or
  not that point fetched it, and the body's triple on whole staging buffers — the inputs kept, the output buffer left
  at the one stored value, a function of the five input blocks alone.
-/
import proofs.«133521_j9955734192541_1_alg».proof.Proof.Gen.KernelIdeal.Launch
import proofs.«133521_j9955734192541_1_alg».proof.Proof.Gen.KernelIdeal.Skeleton
import proofs.«133521_j9955734192541_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: the launch contents, the program being the region alone. -/
abbrev V (c : Dev nD) (b : Ref sig .tc) : Buf (Elt F) ((c : Thread nD τ).loc b) := m ((c : Thread nD τ).loc b)

/-- The program up to its region is the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weight matrix's buffer holds the whole matrix at every point: fetched at the first, and its block index never
    moves. For any proof data on the entry arrays whose body leaves the block in place. -/
theorem holds0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bias row's buffer likewise. -/
theorem holds1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A graph's node features (first node of a pair): fetched when the graph changes, every fourth point, and held
    in between, the block index unmoved. -/
theorem holds2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The slab of second nodes: fetched at every point. -/
theorem holds3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The slab of direction components: fetched at every point. -/
theorem holds4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rH : Rect S1x128x128 := Rect.unit (s := S1x128x128) ![0, 0, 0] S1x128x128.size inb_S1x128x128_S1x128x128_0_0_0
abbrev rS : Rect S1x32x128 := Rect.unit (s := S1x32x128) ![0, 0, 0] S1x32x128.size inb_S1x32x128_S1x32x128_0_0_0
abbrev rD : Rect S1x128x32x3 := Rect.unit (s := S1x128x32x3) ![0, 0, 0, 0] S1x128x32x3.size inb_S1x128x32x3_S1x128x32x3_0_0_0_0
abbrev rO : Rect S1x128x32x3x128 := Rect.unit (s := S1x128x32x3x128) ![0, 0, 0, 0, 0] S1x128x32x3x128.size inb_S1x128x32x3x128_S1x128x32x3x128_0_0_0_0_0

/-! ## What the body leaves in the output buffer -/

/-- The output buffer after the body, from the five input blocks (the weight matrix `w`, the bias row `b`, the first
    nodes' features `h`, the second nodes' slab `s`, the directions `d`): its one store, of the body's one value. -/
def slab (w : Vec F S256x128 .f32) (b : Vec F S1x128 .f32) (h : Vec F S1x128x128 .f32) (s : Vec F S1x32x128 .f32) (d : Vec F S1x128x32x3 .f32) :
    Vec F S1x128x32x3x128 .f32 :=
  View.canon [⟨rO, k0_pay1 (View.ld h rH) (View.ld s rS) (View.ld w rW) (View.ld b rB) (View.ld d rD)⟩]

/-- The one store covers the buffer. -/
theorem slab_cover (p0 : Vec F S1x128x32x3x128 .f32) (y : S1x128x32x3x128.Idx) :
    ∃ pc ∈ ([⟨rO, p0⟩] : List (View.Piece (Elt F) S1x128x32x3x128 .f32)), y ∈ pc.1.set :=
  View.cover_of_tiled [⟨rO, p0⟩] S1x128x32x3x128.size (by rfl) y

/-! ## The body's triple -/

set_option maxHeartbeats 1000000 in
/-- The body on whole staging buffers, the five inputs' at the contents `w b h s d` and the output's at anything,
    runs to the continuation with the inputs' as they were and the output's at `slab w b h s d`. -/
theorem sound_kernel (c : Dev nD) (E : Set ℕ) (i : grid0.Coords)
    (arg2 : Memref sig .tc .vmem S256x128 .f32) (harg2 : arg2.IsWhole) (arg3 : Memref sig .tc .vmem S1x128 .f32) (harg3 : arg3.IsWhole)
    (arg4 : Memref sig .tc .vmem S1x128x128 .f32) (harg4 : arg4.IsWhole) (arg5 : Memref sig .tc .vmem S1x32x128 .f32) (harg5 : arg5.IsWhole)
    (arg6 : Memref sig .tc .vmem S1x128x32x3 .f32) (harg6 : arg6.IsWhole) (arg7 : Memref sig .tc .vmem S1x128x32x3x128 .f32) (harg7 : arg7.IsWhole)
    (w : Vec F S256x128 .f32) (b : Vec F S1x128 .f32) (h : Vec F S1x128x128 .f32) (s : Vec F S1x32x128 .f32) (d : Vec F S1x128x32x3 .f32)
    (K : PUnit → sProp 𝕄) :
    iprop(owns (c : Thread nD τ) arg2 fullShare w ∗ owns (c : Thread nD τ) arg3 fullShare b ∗ owns (c : Thread nD τ) arg4 fullShare h
        ∗ owns (c : Thread nD τ) arg5 fullShare s ∗ owns (c : Thread nD τ) arg6 fullShare d ∗ (∃ o, owns (c : Thread nD τ) arg7 fullShare o)
        ∗ (iprop(owns (c : Thread nD τ) arg2 fullShare w ∗ owns (c : Thread nD τ) arg3 fullShare b ∗ owns (c : Thread nD τ) arg4 fullShare h
            ∗ owns (c : Thread nD τ) arg5 fullShare s ∗ owns (c : Thread nD τ) arg6 fullShare d
            ∗ owns (c : Thread nD τ) arg7 fullShare (slab w b h s d)) -∗ K ⟨⟩))
      ⊢ wp frame (wpE (defs₀ (F := F)) Variants.none c none) E (cc0__gnn_kernel i arg2 harg2 arg3 harg3 arg4 harg4 arg5 harg5 arg6 harg6 arg7 harg7) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%o, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (slab_cover _)

end Cert.KernelIdeal.Region

end
-- ==== Proof.LaunchKI.lean ====
/-
  The frame of `KernelIdeal`'s one pipelined region, second half: the proof data, the launch, and the frame claim.

  Two of the region's windows read ONE argument array — the node features serve as the first node of a pair through
  window 2 and as the second through window 3 — so the region cannot hold that array once per window at the full share.
  The proof data deal it out: window 2 holds the array at the left half of the full share, window 3 at the right half;
  both are inputs, neither is written, and the two halves compose to the whole. Every other array has one window and
  is held whole. At entry the buffers behind the arrays, each whole at the full share, are split accordingly
  (`arrays_of_buffers`); at exit each window's array is read back at its own share, the two windows on the node
  features reading the same, unchanged, contents.

  The body draws no random bits and names no scratch, semaphore or transfer of its own, so the invariant between points
  is only the core's scoped buffers that are no staging buffer, passed through untouched; nothing is owed.
-/
import proofs.«133521_j9955734192541_1_alg».proof.Proof.RegionKI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The core's scoped buffers that are no staging buffer: all the body's invariant holds. -/
abbrev rest (c : Dev nD) : sProp 𝕄 :=
  Pipeline.scopedRest (Ix := Unit) (Name := ℕ) (U := UR sig nD τ) (Lvl := ℕ) (Val := Elt F) spec0 c

/-- The proof data of the one pipeline on core `c`: the arrays as the region finds them; after the body at point `t`
    each input's buffer at its block and the output's at `slab` of the five input blocks; the node features dealt to
    windows 2 and 3 by halves of the full share, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => slab (iblk m c 0 t) (iblk m c 1 t) (iblk m c 2 t) (iblk m c 3 t) (iblk m c 4 t)
  Φ _ := rest c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = slab (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  holds0 m (dats m 0 c) (A_eq m c 0) (after0 m c) t d
theorem before1 (c : Dev nD) (t : Fin cfg0.N) (d) : (dats m 0 c).before 1 t d = iblk m c 1 t :=
  holds1 m (dats m 0 c) (A_eq m c 1) (after1 m c) t d
theorem before2 (c : Dev nD) (t : Fin cfg0.N) (d) : (dats m 0 c).before 2 t d = iblk m c 2 t :=
  holds2 m (dats m 0 c) (A_eq m c 2) (after2 m c) t d
theorem before3 (c : Dev nD) (t : Fin cfg0.N) (d) : (dats m 0 c).before 3 t d = iblk m c 3 t :=
  holds3 m (dats m 0 c) (A_eq m c 3) (after3 m c) t d
theorem before4 (c : Dev nD) (t : Fin cfg0.N) (d) : (dats m 0 c).before 4 t d = iblk m c 4 t :=
  holds4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: each input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays, window by window, and their split at entry -/

/-- The proof data's arrays written out: each window's array is a whole buffer, the node features' held by halves. -/
theorem arrays_eq (c : Dev nD) (G : (w : Fin cfg0.W) → Buf (Elt F) ((cfg0.win w).arr.view.loc (c.tc : Thread nD τ))) :
    (dats m 0 c).arrays G = (iprop(
        (((c.tc : Thread nD τ).loc main_arg2) ↦{fullShare} G 0)
      ∗ (((c.tc : Thread nD τ).loc main_arg3) ↦{fullShare} G 1)
      ∗ (((c.tc : Thread nD τ).loc main_arg0) ↦{fullShare.left} G 2)
      ∗ (((c.tc : Thread nD τ).loc main_arg0) ↦{fullShare.right} G 3)
      ∗ (((c.tc : Thread nD τ).loc main_arg1) ↦{fullShare} G 4)
      ∗ (((c.tc : Thread nD τ).loc main_v0) ↦{fullShare} G 5)) : sProp 𝕄) := by
  unfold Dat.arrays
  rw [bigSep_W0, (arr_whole0 0).set_eq_univ, (arr_whole0 1).set_eq_univ, (arr_whole0 2).set_eq_univ,
    (arr_whole0 4).set_eq_univ, (arr_whole0 5).set_eq_univ]
  rfl

/-- The distinct buffers behind the six windows' arrays are five, listed. -/
theorem buffers_eq (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄) = iprop(
        (((c.tc : Thread nD τ).loc main_arg2) ↦{fullShare} X main_arg2)
      ∗ (((c.tc : Thread nD τ).loc main_arg3) ↦{fullShare} X main_arg3)
      ∗ (((c.tc : Thread nD τ).loc main_arg0) ↦{fullShare} X main_arg0)
      ∗ (((c.tc : Thread nD τ).loc main_arg1) ↦{fullShare} X main_arg1)
      ∗ (((c.tc : Thread nD τ).loc main_v0) ↦{fullShare} X main_v0)) :=
  bigSep_eq_bigSepL_of_eq [main_arg2, main_arg3, main_arg0, main_arg1, main_v0] (by decide) (by decide) _

/-- At entry: the five distinct buffers behind the six windows' arrays, each whole at the full share, make the proof
    data's arrays — the node features' full share parted into its two halves, one per window on it. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, buffers_eq]
  iintro ⟨HW, HB, HH, HD, HO⟩
  ihave HH2 := (pointsTo_share (PosShare.mem_left_op_right fullShare)).1 $$ HH
  icases HH2 with ⟨HHl, HHr⟩
  isplitl [HW]; · iexact HW
  isplitl [HB]; · iexact HB
  isplitl [HHl]; · iexact HHl
  isplitl [HHr]; · iexact HHr
  isplitl [HD]; · iexact HD
  iexact HO

/-! ## The run -/

/-- Into the region: the invariant is the scoped rest the launch hands over. -/
theorem rest_in (c : Dev nD) : (iprop(emp ∗ rest c) : sProp 𝕄) ⊢ (dats m 0 c).Φ 0 := by
  show iprop(emp ∗ rest c) ⊢ rest c
  iintro ⟨-, H⟩
  iexact H

/-- Out of the region: it is handed back. -/
theorem rest_out (c : Dev nD) : (dats m 0 c).Φ (Fin.last cfg0.N) ⊢ (iprop(emp ∗ rest c) : sProp 𝕄) := by
  show rest c ⊢ iprop(emp ∗ rest c)
  iintro H
  isplitr
  · iempintro
  · iexact H

/-- The region leaves nothing beside the arrays to read back. -/
theorem nothing_else (c : Dev nD) (s' : Phys nD τ sig (Elt F)) :
    (iprop(emp ∗ emp ∗ SI s') : sProp 𝕄) ⊢ |={Set.univ}=> iprop(⌜True⌝ ∗ SI s') := by
  iintro ⟨-, -, HSI⟩
  imodintro
  isplitr
  · ipureintro; trivial
  · iexact HSI

/-- No unscoped buffer is left over: every one is a window's array. -/
theorem no_unscoped_rest (c : Dev nD) :
    (Pipeline.unscopedRest (Ix := Unit) (Name := ℕ) (U := UR sig nD τ) (Lvl := ℕ) spec0 c (V m c) : sProp 𝕄) ⊢ iprop(emp ∗ emp) := by
  rw [unscopedRest0_eq]
  iintro -
  isplitr <;> iempintro

/-- After the run every window's array holds what the library computes from the proof data. -/
def RunPost (r : PUnit × MemSt nD τ sig (Elt F)) : Prop :=
  ∀ c : Dev nD, ∀ w : Fin cfg0.W, r.2.mem (((cfg0).spec w).arr.view.loc (c.tc : Thread nD τ)) = (dats m 0 c).arrAt w cfg0.N

set_option backward.isDefEq.respectTransparency.types false in
/-- At the compiled mesh, for any values, from any memory with zero counters: every weakly fair execution of the
    program terminates, nothing faulting, with every array of the pipeline at the proof data's final contents. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_of_buffers m)
    (X := fun _ => iprop(emp)) (Y := fun _ => iprop(emp)) (Z := fun _ => iprop(emp))
    (hX := no_unscoped_rest m) (hin := rest_in m) (hout := rest_out m)
    (QY := fun _ _ => True) (hY := nothing_else)
    (hQ := fun s h c w => (h c).1 w)

/-! ## The frame claim -/

/-- The frame claim's post: the four argument arrays end as launched — each an input array of the region, never
    written, so its final contents are its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 2).trans (((dats m 0 c).arrAt_in 2 rfl _).trans (A_eq m c 2)),
     (h c 4).trans (((dats m 0 c).arrAt_in 4 rfl _).trans (A_eq m c 4)),
     (h c 0).trans (((dats m 0 c).arrAt_in 0 rfl _).trans (A_eq m c 0)),
     (h c 1).trans (((dats m 0 c).arrAt_in 1 rfl _).trans (A_eq m c 1))⟩) (run_main m ρ)

end Cert.KernelIdeal.Region

end
-- ==== Proof.PayEntry.lean ====
/-
  The idealized kernel body's one stored value, read at an index of the output block.

  From its five loaded blocks — the first nodes' features `[1, 128, 128]`, the slab of second nodes `[1, 32, 128]`, the
  weight matrix `[256, 128]`, the bias row `[1, 128]`, the directions `[1, 128, 32, 3]` — the body forms two matrix
  products against the two halves of the weight matrix (rows `0 … 127` and `128 … 255`), broadcasts them against each
  other and the bias, and multiplies by the directions. At the ideal instance a change of float format is the identity
  and a matrix product into a zero accumulator is the sum over the contracted axis; every shape cast and broadcast only
  renames the index. So at `(0, i, j, c, k)` the value is
  `((∑ f, h[0, i, f] · W[f, k]) + (∑ f, s[0, j, f] · W[128 + f, k]) + β[0, k]) · d[0, i, j, c]`.
-/
import proofs.«133521_j9955734192541_1_alg».proof.Proof.Spec
import proofs.«133521_j9955734192541_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PairSpec.Pay

open Idealize.ShloMosaic Idealize.ShloMosaic.ValueIdx Cert.KernelIdeal Cert.PairSpec

/-! ## Shape casts that insert or prepend a unit axis, read at coordinates -/

/-- A `[128, 128]` matrix cast to `[128, 1, 128]` reads, at `(i, u, k)`, the matrix at `(i, k)`. -/
theorem cast_mid_unit3 (x : FVec Ideal S128x128 .f32) (h : S128x128.ShapeCasts S128x1x128)
    (i : Fin 128) (u : Fin 1) (k : Fin 128) :
    shapeCast S128x1x128 x h (ix3 i u k) = x (ix2 i k) :=
  shapeCast_apply x h _ _ (by
    have hu : u.val = 0 := by omega
    rw [Shape.rowMajor_val_two, Shape.rowMajor_val_three]
    show i.val * 128 + k.val = (i.val * 1 + u.val) * 128 + k.val
    omega)

/-- A `[128]` row cast to `[1, 1, 128]` reads, at `(u, u', k)`, the row at `k`. -/
theorem cast_two_units3 (x : FVec Ideal S128 .f32) (h : S128.ShapeCasts S1x1x128)
    (u u' : Fin 1) (k : Fin 128) :
    shapeCast S1x1x128 x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * 128 + k.val
    omega)

/-- A `[128, 32, 128]` array cast to `[128, 32, 1, 128]` reads, at `(i, j, u, k)`, the array at `(i, j, k)`. -/
theorem cast_unit_before_last4 (x : FVec Ideal S128x32x128 .f32) (h : S128x32x128.ShapeCasts S128x32x1x128)
    (i : Fin 128) (j : Fin 32) (u : Fin 1) (k : Fin 128) :
    shapeCast S128x32x1x128 x h (ix4 i j u k) = x (ix3 i j k) :=
  shapeCast_apply x h _ _ (by
    have hu : u.val = 0 := by omega
    rw [Shape.rowMajor_val_three, Shape.rowMajor_val_four]
    show (i.val * 32 + j.val) * 128 + k.val = ((i.val * 32 + j.val) * 1 + u.val) * 128 + k.val
    omega)

/-- A `[128, 32, 3]` array cast to `[128, 32, 3, 1]` reads, at `(i, j, c, u)`, the array at `(i, j, c)`. -/
theorem cast_unit_last4 (x : FVec Ideal S128x32x3 .f32) (h : S128x32x3.ShapeCasts S128x32x3x1)
    (i : Fin 128) (j : Fin 32) (c : Fin 3) (u : Fin 1) :
    shapeCast S128x32x3x1 x h (ix4 i j c u) = x (ix3 i j c) :=
  shapeCast_apply x h _ _ (by
    have hu : u.val = 0 := by omega
    rw [Shape.rowMajor_val_three, Shape.rowMajor_val_four]
    show (i.val * 32 + j.val) * 3 + c.val = ((i.val * 32 + j.val) * 3 + c.val) * 1 + u.val
    omega)

/-- A `[128, 32, 3, 128]` array cast to `[1, 128, 32, 3, 128]` reads, at `(u, i, j, c, k)`, the array at `(i, j, c, k)`. -/
theorem cast_lead_unit5 (x : FVec Ideal S128x32x3x128 .f32) (h : S128x32x3x128.ShapeCasts S1x128x32x3x128)
    (u : Fin 1) (i : Fin 128) (j : Fin 32) (c : Fin 3) (k : Fin 128) :
    shapeCast S1x128x32x3x128 x h (ix5 u i j c k) = x (ix4 i j c k) :=
  shapeCast_apply x h _ _ (by
    have hu : u.val = 0 := by omega
    rw [Shape.rowMajor_val_four, Shape.rowMajor_val_five]
    show ((i.val * 32 + j.val) * 3 + c.val) * 128 + k.val
      = (((u.val * 128 + i.val) * 32 + j.val) * 3 + c.val) * 128 + k.val
    omega)

/-! ## Broadcasts along a unit axis, read at coordinates -/

/-- A `[128, 1, 128]` array broadcast to `[128, 32, 128]` reads, at `(i, j, k)`, the operand at `(i, 0, k)`. -/
theorem bcast_mid3 (x : FVec Ideal S128x1x128 .f32) (h : S128x1x128.Broadcasts S128x32x128)
    (i : Fin 128) (j : Fin 32) (k : Fin 128) :
    broadcastTo S128x32x128 x h (ix3 i j k) = x (ix3 i (0 : Fin 1) k) :=
  broadcastTo_apply x h (ix3 i j k) (ix3 i (0 : Fin 1) k) fun ax => by
    match ax with
    | ⟨0, _⟩ => rfl
    | ⟨1, _⟩ => rfl
    | ⟨2, _⟩ => rfl

/-- A `[1, 32, 128]` array broadcast to `[128, 32, 128]` reads, at `(i, j, k)`, the operand at `(0, j, k)`. -/
theorem bcast_lead3 (x : FVec Ideal S1x32x128 .f32) (h : S1x32x128.Broadcasts S128x32x128)
    (i : Fin 128) (j : Fin 32) (k : Fin 128) :
    broadcastTo S128x32x128 x h (ix3 i j k) = x (ix3 (0 : Fin 1) j k) :=
  broadcastTo_apply x h (ix3 i j k) (ix3 (0 : Fin 1) j k) fun ax => by
    match ax with
    | ⟨0, _⟩ => rfl
    | ⟨1, _⟩ => rfl
    | ⟨2, _⟩ => rfl

/-- A `[1, 1, 128]` array broadcast to `[128, 32, 128]` reads, at `(i, j, k)`, the operand at `(0, 0, k)`. -/
theorem bcast_row3 (x : FVec Ideal S1x1x128 .f32) (h : S1x1x128.Broadcasts S128x32x128)
    (i : Fin 128) (j : Fin 32) (k : Fin 128) :
    broadcastTo S128x32x128 x h (ix3 i j k) = x (ix3 (0 : Fin 1) (0 : Fin 1) k) :=
  broadcastTo_apply x h (ix3 i j k) (ix3 (0 : Fin 1) (0 : Fin 1) k) fun ax => by
    match ax with
    | ⟨0, _⟩ => rfl
    | ⟨1, _⟩ => rfl
    | ⟨2, _⟩ => rfl

/-- A `[128, 32, 1, 128]` array broadcast to `[128, 32, 3, 128]` reads, at `(i, j, c, k)`, the operand at `(i, j, 0, k)`. -/
theorem bcast_comp4 (x : FVec Ideal S128x32x1x128 .f32) (h : S128x32x1x128.Broadcasts S128x32x3x128)
    (i : Fin 128) (j : Fin 32) (c : Fin 3) (k : Fin 128) :
    broadcastTo S128x32x3x128 x h (ix4 i j c k) = x (ix4 i j (0 : Fin 1) k) :=
  broadcastTo_apply x h (ix4 i j c k) (ix4 i j (0 : Fin 1) k) fun ax => by
    match ax with
    | ⟨0, _⟩ => rfl
    | ⟨1, _⟩ => rfl
    | ⟨2, _⟩ => rfl
    | ⟨3, _⟩ => rfl

/-- A `[128, 32, 3, 1]` array broadcast to `[128, 32, 3, 128]` reads, at `(i, j, c, k)`, the operand at `(i, j, c, 0)`. -/
theorem bcast_chan4 (x : FVec Ideal S128x32x3x1 .f32) (h : S128x32x3x1.Broadcasts S128x32x3x128)
    (i : Fin 128) (j : Fin 32) (c : Fin 3) (k : Fin 128) :
    broadcastTo S128x32x3x128 x h (ix4 i j c k) = x (ix4 i j c (0 : Fin 1)) :=
  broadcastTo_apply x h (ix4 i j c k) (ix4 i j c (0 : Fin 1)) fun ax => by
    match ax with
    | ⟨0, _⟩ => rfl
    | ⟨1, _⟩ => rfl
    | ⟨2, _⟩ => rfl
    | ⟨3, _⟩ => rfl

/-! ## The two halves of the weight matrix -/

/-- The rows `0 … 127` of the `[256, 128]` matrix, read at `(f, k)`: the matrix at row `upper f`. -/
theorem slice_upper (W : FVec Ideal S256x128 .f32) (h : S256x128.Slices ![0, 0] S128x128) (f k : Fin 128) :
    extractStridedSlice S128x128 ![0, 0] W h (ix2 f k) = W (ix2 (upper f) k) :=
  slice2_axis0_apply 0 W h f k (upper f) (Nat.zero_add _).symm

/-- The rows `128 … 255` of the `[256, 128]` matrix, read at `(f, k)`: the matrix at row `lower f`. -/
theorem slice_lower (W : FVec Ideal S256x128 .f32) (h : S256x128.Slices ![128, 0] S128x128) (f k : Fin 128) :
    extractStridedSlice S128x128 ![128, 0] W h (ix2 f k) = W (ix2 (lower f) k) :=
  slice2_axis0_apply 128 W h f k (lower f) rfl

/-! ## The two matrix products into a zero accumulator, read at coordinates

Each product contracts the left operand's axis `1` with the right operand's axis `0`; its contraction index has one
coordinate, so the sum over it is a sum over `Fin 128`. The four axis equations of each product's operand indices
are kept as separate lemmas at the literal axes. -/

theorem lhs_first_0 (i : S128x128.Idx) (q : Cert.KernelIdeal.dot_S128x128_S128x128_S128x128_1_0_0_1_n_n.contr.Idx) :
    (Cert.KernelIdeal.dot_S128x128_S128x128_S128x128_1_0_0_1_n_n.lhsIdx i q 0).val = (i 0).val := by
  unfold DotDims.lhsIdx
  rw [dif_neg (show ¬(0 : Fin S128x128.rank) ∈ Cert.KernelIdeal.dot_S128x128_S128x128_S128x128_1_0_0_1_n_n.lhsBatch by decide), dif_pos (show (0 : Fin S128x128.rank) ∈ Cert.KernelIdeal.dot_S128x128_S128x128_S128x128_1_0_0_1_n_n.lhsNonContracting by decide)]
  rfl
theorem lhs_first_1 (i : S128x128.Idx) (q : Cert.KernelIdeal.dot_S128x128_S128x128_S128x128_1_0_0_1_n_n.contr.Idx) :
    (Cert.KernelIdeal.dot_S128x128_S128x128_S128x128_1_0_0_1_n_n.lhsIdx i q 1).val = (q ⟨0, by decide⟩).val :=
  Cert.KernelIdeal.dot_S128x128_S128x128_S128x128_1_0_0_1_n_n.lhsIdx_val_of_single rfl i q
theorem rhs_first_0 (i : S128x128.Idx) (q : Cert.KernelIdeal.dot_S128x128_S128x128_S128x128_1_0_0_1_n_n.contr.Idx) :
    (Cert.KernelIdeal.dot_S128x128_S128x128_S128x128_1_0_0_1_n_n.rhsIdx i q 0).val = (q ⟨0, by decide⟩).val :=
  Cert.KernelIdeal.dot_S128x128_S128x128_S128x128_1_0_0_1_n_n.rhsIdx_val_of_single rfl i q
theorem rhs_first_1 (i : S128x128.Idx) (q : Cert.KernelIdeal.dot_S128x128_S128x128_S128x128_1_0_0_1_n_n.contr.Idx) :
    (Cert.KernelIdeal.dot_S128x128_S128x128_S128x128_1_0_0_1_n_n.rhsIdx i q 1).val = (i 1).val := by
  unfold DotDims.rhsIdx
  rw [dif_neg (show ¬(1 : Fin S128x128.rank) ∈ Cert.KernelIdeal.dot_S128x128_S128x128_S128x128_1_0_0_1_n_n.rhsBatch by decide), dif_pos (show (1 : Fin S128x128.rank) ∈ Cert.KernelIdeal.dot_S128x128_S128x128_S128x128_1_0_0_1_n_n.rhsNonContracting by decide)]
  rfl

/-- The product for the first node of a pair: entry `(i, k)` is `∑ f, a[i, f] · b[f, k]`. -/
theorem matmul_first_apply (a : FVec Ideal S128x128 .bf16) (b : FVec Ideal S128x128 .bf16) (i : Fin 128) (k : Fin 128) :
    matmul Cert.KernelIdeal.dot_S128x128_S128x128_S128x128_1_0_0_1_n_n none a b (constant (F := Ideal) S128x128 .f32 0x00000000#32) (ix2 i k)
      = ∑ f : Fin 128, a (ix2 i f) * b (ix2 f k) := by
  refine (Ideal.matmul_constant_zero_apply Cert.KernelIdeal.dot_S128x128_S128x128_S128x128_1_0_0_1_n_n none a b (ix2 i k)).trans ?_
  rw [← Equiv.sum_comp (ValueIdx.contrEquiv1 Cert.KernelIdeal.dot_S128x128_S128x128_S128x128_1_0_0_1_n_n 128 rfl rfl).symm]
  refine Finset.sum_congr rfl fun f _ => ?_
  have hk := ValueIdx.contrEquiv1_symm_val Cert.KernelIdeal.dot_S128x128_S128x128_S128x128_1_0_0_1_n_n 128 rfl rfl f
  have el : Cert.KernelIdeal.dot_S128x128_S128x128_S128x128_1_0_0_1_n_n.lhsIdx (ix2 i k) ((ValueIdx.contrEquiv1 Cert.KernelIdeal.dot_S128x128_S128x128_S128x128_1_0_0_1_n_n 128 rfl rfl).symm f) = ix2 i f := funext fun a => Fin.ext (by
    match a with
    | ⟨0, _⟩ => exact lhs_first_0 _ _
    | ⟨1, _⟩ => exact (lhs_first_1 _ _).trans hk)
  have er : Cert.KernelIdeal.dot_S128x128_S128x128_S128x128_1_0_0_1_n_n.rhsIdx (ix2 i k) ((ValueIdx.contrEquiv1 Cert.KernelIdeal.dot_S128x128_S128x128_S128x128_1_0_0_1_n_n 128 rfl rfl).symm f) = ix2 f k := funext fun a => Fin.ext (by
    match a with
    | ⟨0, _⟩ => exact (rhs_first_0 _ _).trans hk
    | ⟨1, _⟩ => exact rhs_first_1 _ _)
  rw [el, er]

theorem lhs_second_0 (i : S32x128.Idx) (q : Cert.KernelIdeal.dot_S32x128_S128x128_S32x128_1_0_0_1_n_n.contr.Idx) :
    (Cert.KernelIdeal.dot_S32x128_S128x128_S32x128_1_0_0_1_n_n.lhsIdx i q 0).val = (i 0).val := by
  unfold DotDims.lhsIdx
  rw [dif_neg (show ¬(0 : Fin S32x128.rank) ∈ Cert.KernelIdeal.dot_S32x128_S128x128_S32x128_1_0_0_1_n_n.lhsBatch by decide), dif_pos (show (0 : Fin S32x128.rank) ∈ Cert.KernelIdeal.dot_S32x128_S128x128_S32x128_1_0_0_1_n_n.lhsNonContracting by decide)]
  rfl
theorem lhs_second_1 (i : S32x128.Idx) (q : Cert.KernelIdeal.dot_S32x128_S128x128_S32x128_1_0_0_1_n_n.contr.Idx) :
    (Cert.KernelIdeal.dot_S32x128_S128x128_S32x128_1_0_0_1_n_n.lhsIdx i q 1).val = (q ⟨0, by decide⟩).val :=
  Cert.KernelIdeal.dot_S32x128_S128x128_S32x128_1_0_0_1_n_n.lhsIdx_val_of_single rfl i q
theorem rhs_second_0 (i : S32x128.Idx) (q : Cert.KernelIdeal.dot_S32x128_S128x128_S32x128_1_0_0_1_n_n.contr.Idx) :
    (Cert.KernelIdeal.dot_S32x128_S128x128_S32x128_1_0_0_1_n_n.rhsIdx i q 0).val = (q ⟨0, by decide⟩).val :=
  Cert.KernelIdeal.dot_S32x128_S128x128_S32x128_1_0_0_1_n_n.rhsIdx_val_of_single rfl i q
theorem rhs_second_1 (i : S32x128.Idx) (q : Cert.KernelIdeal.dot_S32x128_S128x128_S32x128_1_0_0_1_n_n.contr.Idx) :
    (Cert.KernelIdeal.dot_S32x128_S128x128_S32x128_1_0_0_1_n_n.rhsIdx i q 1).val = (i 1).val := by
  unfold DotDims.rhsIdx
  rw [dif_neg (show ¬(1 : Fin S128x128.rank) ∈ Cert.KernelIdeal.dot_S32x128_S128x128_S32x128_1_0_0_1_n_n.rhsBatch by decide), dif_pos (show (1 : Fin S128x128.rank) ∈ Cert.KernelIdeal.dot_S32x128_S128x128_S32x128_1_0_0_1_n_n.rhsNonContracting by decide)]
  rfl

/-- The product for the second node of a pair: entry `(j, k)` is `∑ f, a[j, f] · b[f, k]`. -/
theorem matmul_second_apply (a : FVec Ideal S32x128 .bf16) (b : FVec Ideal S128x128 .bf16) (i : Fin 32) (k : Fin 128) :
    matmul Cert.KernelIdeal.dot_S32x128_S128x128_S32x128_1_0_0_1_n_n none a b (constant (F := Ideal) S32x128 .f32 0x00000000#32) (ix2 i k)
      = ∑ f : Fin 128, a (ix2 i f) * b (ix2 f k) := by
  refine (Ideal.matmul_constant_zero_apply Cert.KernelIdeal.dot_S32x128_S128x128_S32x128_1_0_0_1_n_n none a b (ix2 i k)).trans ?_
  rw [← Equiv.sum_comp (ValueIdx.contrEquiv1 Cert.KernelIdeal.dot_S32x128_S128x128_S32x128_1_0_0_1_n_n 128 rfl rfl).symm]
  refine Finset.sum_congr rfl fun f _ => ?_
  have hk := ValueIdx.contrEquiv1_symm_val Cert.KernelIdeal.dot_S32x128_S128x128_S32x128_1_0_0_1_n_n 128 rfl rfl f
  have el : Cert.KernelIdeal.dot_S32x128_S128x128_S32x128_1_0_0_1_n_n.lhsIdx (ix2 i k) ((ValueIdx.contrEquiv1 Cert.KernelIdeal.dot_S32x128_S128x128_S32x128_1_0_0_1_n_n 128 rfl rfl).symm f) = ix2 i f := funext fun a => Fin.ext (by
    match a with
    | ⟨0, _⟩ => exact lhs_second_0 _ _
    | ⟨1, _⟩ => exact (lhs_second_1 _ _).trans hk)
  have er : Cert.KernelIdeal.dot_S32x128_S128x128_S32x128_1_0_0_1_n_n.rhsIdx (ix2 i k) ((ValueIdx.contrEquiv1 Cert.KernelIdeal.dot_S32x128_S128x128_S32x128_1_0_0_1_n_n 128 rfl rfl).symm f) = ix2 f k := funext fun a => Fin.ext (by
    match a with
    | ⟨0, _⟩ => exact (rhs_second_0 _ _).trans hk
    | ⟨1, _⟩ => exact rhs_second_1 _ _)
  rw [el, er]

/-! ## The stored value at an index -/

/-- The kernel body's one stored value at `(0, i, j, c, k)`: the index goes down through the outer cast, the product,
    the two broadcasts along the component and channel axes, the two sums with their broadcasts along the node axes and
    the bias row, to the two matrix products; under each product's sum the rounding to the narrower format is the
    identity on the extended reals, the left operand is the node-feature block without its unit axis and the right
    operand is a half of the weight matrix. -/
theorem pay_entry (v0 : Vec Ideal S1x128x128 .f32) (v2 : Vec Ideal S1x32x128 .f32) (v4 : Vec Ideal S256x128 .f32) (v7 : Vec Ideal S1x128 .f32)
    (v23 : Vec Ideal S1x128x32x3 .f32) (i : Fin 128) (j : Fin 32) (c : Fin 3) (k : Fin 128) :
    Cert.KernelIdeal.Gen.k0_pay1 (F := Ideal) v0 v2 v4 v7 v23 (ix5 (0 : Fin 1) i j c k)
      = ((∑ f : Fin 128, v0 (ix3 (0 : Fin 1) i f) * v4 (ix2 (upper f) k)) + (∑ f : Fin 128, v2 (ix3 (0 : Fin 1) j f) * v4 (ix2 (lower f) k))
          + v7 (ix2 (0 : Fin 1) k)) * v23 (ix4 (0 : Fin 1) i j c) := by
  unfold Gen.k0_pay1
  rw [cast_lead_unit5, mulf_apply, bcast_comp4, bcast_chan4, cast_unit_before_last4, cast_unit_last4,
    shapeCast_1abc_abc_apply, addf_apply, addf_apply, bcast_mid3, bcast_lead3, bcast_row3,
    cast_mid_unit3, shapeCast_ab_1ab_apply, cast_two_units3, shapeCast_1a_a_apply,
    matmul_first_apply, matmul_second_apply]
  refine congrArg (· * v23 (ix4 (0 : Fin 1) i j c)) (congrArg (· + v7 (ix2 (0 : Fin 1) k)) (congrArg₂ (· + ·) ?_ ?_))
  · refine Finset.sum_congr rfl fun f _ => ?_
    rw [truncf_apply, truncf_apply, shapeCast_1ab_ab_apply, slice_upper]
  · refine Finset.sum_congr rfl fun f _ => ?_
    rw [truncf_apply, truncf_apply, shapeCast_1ab_ab_apply, slice_lower]

end Cert.PairSpec.Pay

end
-- ==== Proof.ResultKI.lean ====
/-
  What the idealized kernel's result array holds after the run: the specification's `features` of the four argument
  arrays, index by index.

  Point `t` of the grid is a graph `g` and a slab `s` of `32` second nodes. What it writes back is the body's one value of
  its five input blocks; read at `(0, i, j', c, k)` that value is the pair feature of node `i` (row `i` of graph `g`'s whole
  feature block) and node `32 s + j'` (row `j'` of the slab), times direction component `c` of that pair: the
  specification's entry `(g, i, 32 s + j', c, k)`, which is exactly where the output block puts it. The `8 × 4` blocks
  tile the result, so the array after the run is `features` everywhere.
-/
import proofs.«133521_j9955734192541_1_alg».proof.Proof.LaunchKI
import proofs.«133521_j9955734192541_1_alg».proof.Proof.Spec
import proofs.«133521_j9955734192541_1_alg».proof.Proof.PayEntry
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Region Cert.PairSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The schedule's index maps, decided over the grid -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- At every point: the weight matrix and the bias row sit at block `0`; the first nodes' block is the output's graph;
    the second nodes' slab is the output's graph and slab; so is the directions' slab; the output's other block indices
    are `0`, its graph below `8` and its slab below `4`. -/
theorem idx_facts : ∀ t : Fin cfg0.N,
      win0_0.index t (0 : Fin 2) = 0 ∧ win0_0.index t (1 : Fin 2) = 0
    ∧ win0_1.index t (0 : Fin 2) = 0 ∧ win0_1.index t (1 : Fin 2) = 0
    ∧ win0_2.index t (0 : Fin 3) = win0_5.index t (0 : Fin 5) ∧ win0_2.index t (1 : Fin 3) = 0 ∧ win0_2.index t (2 : Fin 3) = 0
    ∧ win0_3.index t (0 : Fin 3) = win0_5.index t (0 : Fin 5) ∧ win0_3.index t (1 : Fin 3) = win0_5.index t (2 : Fin 5) ∧ win0_3.index t (2 : Fin 3) = 0
    ∧ win0_4.index t (0 : Fin 4) = win0_5.index t (0 : Fin 5) ∧ win0_4.index t (1 : Fin 4) = 0
      ∧ win0_4.index t (2 : Fin 4) = win0_5.index t (2 : Fin 5) ∧ win0_4.index t (3 : Fin 4) = 0
    ∧ win0_5.index t (1 : Fin 5) = 0 ∧ win0_5.index t (3 : Fin 5) = 0 ∧ win0_5.index t (4 : Fin 5) = 0
    ∧ win0_5.index t (0 : Fin 5) ≤ 7 ∧ win0_5.index t (2 : Fin 5) ≤ 3 :=
  (by decide +kernel : ∀ t : Fin grid0.N, _)

/-- Every graph and slab is some point's. -/
theorem idx_onto : ∀ (g : Fin 8) (s : Fin 4), ∃ t : Fin cfg0.N, win0_5.index t = ![g.val, 0, s.val, 0, 0] :=
  (by decide +kernel : ∀ (g : Fin 8) (s : Fin 4), ∃ t : Fin grid0.N, win0_5.index t = ![g.val, 0, s.val, 0, 0])

/-! ## The argument arrays, and each block's entries as theirs -/

/-- Node features, directions, weights, bias: the four argument arrays as the region finds them. -/
abbrev feats (c : Dev nD) : (⟨3, ![8, 128, 128]⟩ : Shape).Idx → EReal := V m c main_arg0
abbrev dirs (c : Dev nD) : (⟨4, ![8, 128, 128, 3]⟩ : Shape).Idx → EReal := V m c main_arg1
abbrev wts (c : Dev nD) : (⟨2, ![256, 128]⟩ : Shape).Idx → EReal := V m c main_arg2
abbrev bias (c : Dev nD) : (⟨2, ![1, 128]⟩ : Shape).Idx → EReal := V m c main_arg3

/-- The point's graph and, for row `j` of its slab, the node's number. -/
abbrev graphOf (t : Fin cfg0.N) : Fin 8 := ⟨win0_5.index t (0 : Fin 5), by have := idx_facts t; omega⟩
abbrev nodeOf (t : Fin cfg0.N) (j : Fin 32) : Fin 128 :=
  ⟨win0_5.index t (2 : Fin 5) * 32 + j.val, by have := idx_facts t; have := j.isLt; omega⟩

theorem wblk_apply (c : Dev nD) (t : Fin cfg0.N) (r : Fin 256) (k : Fin 128) :
    iblk m c 0 t (ix2 r k) = wts m c (ix2 r k) := by
  obtain ⟨e0, e1, -⟩ := idx_facts t
  show V m c main_arg2 (((cfg0.win 0).blk t).view.emb (ix2 r k)) = V m c main_arg2 (ix2 r k)
  refine congrArg _ (funext fun a => Fin.ext ?_)
  match a with
  | ⟨0, _⟩ => show win0_0.index t (0 : Fin 2) * 256 + 1 * r.val = r.val; omega
  | ⟨1, _⟩ => show win0_0.index t (1 : Fin 2) * 128 + 1 * k.val = k.val; omega

theorem bblk_apply (c : Dev nD) (t : Fin cfg0.N) (k : Fin 128) :
    iblk m c 1 t (ix2 (0 : Fin 1) k) = bias m c (ix2 (0 : Fin 1) k) := by
  obtain ⟨-, -, e0, e1, -⟩ := idx_facts t
  show V m c main_arg3 (((cfg0.win 1).blk t).view.emb (ix2 (0 : Fin 1) k)) = V m c main_arg3 (ix2 (0 : Fin 1) k)
  refine congrArg _ (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

theorem hblk_apply (c : Dev nD) (t : Fin cfg0.N) (i f : Fin 128) :
    iblk m c 2 t (ix3 (0 : Fin 1) i f) = feats m c (ix3 (graphOf t) i f) := by
  obtain ⟨-, -, -, -, e0, e1, e2, -⟩ := idx_facts t
  show V m c main_arg0 (((cfg0.win 2).blk t).view.emb (ix3 (0 : Fin 1) i f)) = V m c main_arg0 (ix3 (graphOf t) i f)
  refine congrArg _ (funext fun a => Fin.ext ?_)
  match a with
  | ⟨0, _⟩ => show win0_2.index t (0 : Fin 3) * 1 + 1 * 0 = win0_5.index t (0 : Fin 5); omega
  | ⟨1, _⟩ => show win0_2.index t (1 : Fin 3) * 128 + 1 * i.val = i.val; omega
  | ⟨2, _⟩ => show win0_2.index t (2 : Fin 3) * 128 + 1 * f.val = f.val; omega

theorem sblk_apply (c : Dev nD) (t : Fin cfg0.N) (j : Fin 32) (f : Fin 128) :
    iblk m c 3 t (ix3 (0 : Fin 1) j f) = feats m c (ix3 (graphOf t) (nodeOf t j) f) := by
  obtain ⟨-, -, -, -, -, -, -, e0, e1, e2, -⟩ := idx_facts t
  show V m c main_arg0 (((cfg0.win 3).blk t).view.emb (ix3 (0 : Fin 1) j f)) = V m c main_arg0 (ix3 (graphOf t) (nodeOf t j) f)
  refine congrArg _ (funext fun a => Fin.ext ?_)
  match a with
  | ⟨0, _⟩ => show win0_3.index t (0 : Fin 3) * 1 + 1 * 0 = win0_5.index t (0 : Fin 5); omega
  | ⟨1, _⟩ => show win0_3.index t (1 : Fin 3) * 32 + 1 * j.val = win0_5.index t (2 : Fin 5) * 32 + j.val; omega
  | ⟨2, _⟩ => show win0_3.index t (2 : Fin 3) * 128 + 1 * f.val = f.val; omega

theorem dblk_apply (c : Dev nD) (t : Fin cfg0.N) (i : Fin 128) (j : Fin 32) (a3 : Fin 3) :
    iblk m c 4 t (ix4 (0 : Fin 1) i j a3) = dirs m c (ix4 (graphOf t) i (nodeOf t j) a3) := by
  obtain ⟨-, -, -, -, -, -, -, -, -, -, e0, e1, e2, e3, -⟩ := idx_facts t
  show V m c main_arg1 (((cfg0.win 4).blk t).view.emb (ix4 (0 : Fin 1) i j a3)) = V m c main_arg1 (ix4 (graphOf t) i (nodeOf t j) a3)
  refine congrArg _ (funext fun a => Fin.ext ?_)
  match a with
  | ⟨0, _⟩ => show win0_4.index t (0 : Fin 4) * 1 + 1 * 0 = win0_5.index t (0 : Fin 5); omega
  | ⟨1, _⟩ => show win0_4.index t (1 : Fin 4) * 128 + 1 * i.val = i.val; omega
  | ⟨2, _⟩ => show win0_4.index t (2 : Fin 4) * 32 + 1 * j.val = win0_5.index t (2 : Fin 5) * 32 + j.val; omega
  | ⟨3, _⟩ => show win0_4.index t (3 : Fin 4) * 3 + 1 * a3.val = a3.val; omega

/-- Where the output block puts its entry `(0, i, j, a3, k)`: at `(graph, i, node j, a3, k)` of the result. -/
theorem oblk_emb (t : Fin cfg0.N) (i : Fin 128) (j : Fin 32) (a3 : Fin 3) (k : Fin 128) :
    ((cfg0.win 5).blk t).view.emb (ix5 (0 : Fin 1) i j a3 k) = ix5 (graphOf t) i (nodeOf t j) a3 k := by
  obtain ⟨-, -, -, -, -, -, -, -, -, -, -, -, -, -, e1, e3, e4, -⟩ := idx_facts t
  refine funext fun a => Fin.ext ?_
  match a with
  | ⟨0, _⟩ => show win0_5.index t (0 : Fin 5) * 1 + 1 * 0 = win0_5.index t (0 : Fin 5); omega
  | ⟨1, _⟩ => show win0_5.index t (1 : Fin 5) * 128 + 1 * i.val = i.val; omega
  | ⟨2, _⟩ => show win0_5.index t (2 : Fin 5) * 32 + 1 * j.val = win0_5.index t (2 : Fin 5) * 32 + j.val; omega
  | ⟨3, _⟩ => show win0_5.index t (3 : Fin 5) * 3 + 1 * a3.val = a3.val; omega
  | ⟨4, _⟩ => show win0_5.index t (4 : Fin 5) * 128 + 1 * k.val = k.val; omega

/-! ## What a point writes back -/

/-- The whole result, of the argument arrays as the region finds them. -/
abbrev whole (c : Dev nD) : (⟨5, ![8, 128, 128, 3, 128]⟩ : Shape).Idx → EReal :=
  features (feats m c) (dirs m c) (wts m c) (bias m c)

/-- What point `t` writes back is block `t` of the whole result. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after5]
  unfold slab
  rw [View.canon_unit_zero hz5]
  simp only [View.ld_unit_zero (S := S256x128) hz2, View.ld_unit_zero (S := S1x128) hz2, View.ld_unit_zero (S := S1x128x128) hz3,
    View.ld_unit_zero (S := S1x32x128) hz3, View.ld_unit_zero (S := S1x128x32x3) hz4]
  funext y
  obtain ⟨i, j, a3, k, rfl⟩ : ∃ (i : Fin 128) (j : Fin 32) (a3 : Fin 3) (k : Fin 128), y = ix5 (0 : Fin 1) i j a3 k :=
    ⟨y 1, y 2, y 3, y 4, by
      refine funext fun a => Fin.ext ?_
      match a with
      | ⟨0, _⟩ => show (y 0).val = 0; have h0 : (y 0).val < 1 := (y 0).isLt; omega
      | ⟨1, _⟩ => rfl
      | ⟨2, _⟩ => rfl
      | ⟨3, _⟩ => rfl
      | ⟨4, _⟩ => rfl⟩
  show k0_pay1 (F := Ideal) (iblk m c 2 t) (iblk m c 3 t) (iblk m c 0 t) (iblk m c 1 t) (iblk m c 4 t) (ix5 (0 : Fin 1) i j a3 k)
    = whole m c (((cfg0.win 5).blk t).view.emb (ix5 (0 : Fin 1) i j a3 k))
  rw [oblk_emb]
  show _ = entry (feats m c) (dirs m c) (wts m c) (bias m c) (graphOf t) i (nodeOf t j) a3 k
  refine (Cert.PairSpec.Pay.pay_entry (iblk m c 2 t) (iblk m c 3 t) (iblk m c 0 t) (iblk m c 1 t) (iblk m c 4 t) i j a3 k).trans ?_
  unfold entry
  rw [bblk_apply, dblk_apply]
  refine congrArg₂ (· * ·) (congrArg₂ (· + ·) (congrArg₂ (· + ·) ?_ ?_) rfl) rfl
  · exact Finset.sum_congr rfl fun f _ => by rw [hblk_apply, wblk_apply]
  · exact Finset.sum_congr rfl fun f _ => by rw [sblk_apply, wblk_apply]

/-! ## The blocks tile the result -/

/-- An index of the result is in point `t`'s block iff each coordinate is in the block's range on its axis. -/
theorem mem_blk (t : Fin cfg0.N) (y : S8x128x128x3x128.Idx) :
    y ∈ ((cfg0.win 5).blk t).view.set ↔ ∀ a : Fin 5, win0_5.index t a * S1x128x32x3x128.size a ≤ (y a).val
      ∧ (y a).val < win0_5.index t a * S1x128x32x3x128.size a + S1x128x32x3x128.size a := by
  show y ∈ ((View.whole main_v0).slice (win0_5.rect t)).set ↔ _
  rw [View.set_slice_whole, Rect.mem_set_unit]
  exact Iff.rfl

/-- Every index of the result lies in the block of the point of its graph `y 0` and slab `y 2 / 32`. -/
theorem covered (y : S8x128x128x3x128.Idx) :
    ∃ t : Fin cfg0.N, (cfg0.win 5).flush t = true ∧ y ∈ ((cfg0.win 5).blk t).view.set := by
  have h0 : (y 0).val < 8 := (y 0).isLt
  have h1 : (y 1).val < 128 := (y 1).isLt
  have h2 : (y 2).val < 128 := (y 2).isLt
  have h3 : (y 3).val < 3 := (y 3).isLt
  have h4 : (y 4).val < 128 := (y 4).isLt
  obtain ⟨t, ht⟩ := idx_onto ⟨(y 0).val, h0⟩ ⟨(y 2).val / 32, by omega⟩
  have q0 : win0_5.index t (0 : Fin 5) = (y 0).val := congrFun ht 0
  have q1 : win0_5.index t (1 : Fin 5) = 0 := congrFun ht 1
  have q2 : win0_5.index t (2 : Fin 5) = (y 2).val / 32 := congrFun ht 2
  have q3 : win0_5.index t (3 : Fin 5) = 0 := congrFun ht 3
  have q4 : win0_5.index t (4 : Fin 5) = 0 := congrFun ht 4
  refine ⟨t, flush0_5 t, ?_⟩
  rw [mem_blk]
  intro a
  match a with
  | ⟨0, _⟩ => show win0_5.index t (0 : Fin 5) * 1 ≤ (y 0).val ∧ (y 0).val < win0_5.index t (0 : Fin 5) * 1 + 1; omega
  | ⟨1, _⟩ => show win0_5.index t (1 : Fin 5) * 128 ≤ (y 1).val ∧ (y 1).val < win0_5.index t (1 : Fin 5) * 128 + 128; omega
  | ⟨2, _⟩ => show win0_5.index t (2 : Fin 5) * 32 ≤ (y 2).val ∧ (y 2).val < win0_5.index t (2 : Fin 5) * 32 + 32; omega
  | ⟨3, _⟩ => show win0_5.index t (3 : Fin 5) * 3 ≤ (y 3).val ∧ (y 3).val < win0_5.index t (3 : Fin 5) * 3 + 3; omega
  | ⟨4, _⟩ => show win0_5.index t (4 : Fin 5) * 128 ≤ (y 4).val ∧ (y 4).val < win0_5.index t (4 : Fin 5) * 128 + 128; omega

/-! ## The result array after the run -/

/-- The result array after every write-back is the whole result. -/
theorem final (c : Dev nD) : (dats m 0 c).arrAt 5 cfg0.N = whole m c :=
  (dats m 0 c).arrAt_eq_of_cover 5 (whole m c) (fun t _ => flushed_eq m c t) covered

/-- The run, read: the result at `features` of the launch contents of the four arguments, the arguments unchanged. -/
theorem run : θ_run defs (onTc (τ := τ) (main (F := Ideal))) ⟨m, fun _ => 0, ρ⟩ fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c 5).trans (final m c),
     (h c 2).trans (((dats m 0 c).arrAt_in 2 rfl _).trans (A_eq m c 2)),
     (h c 4).trans (((dats m 0 c).arrAt_in 4 rfl _).trans (A_eq m c 4)),
     (h c 0).trans (((dats m 0 c).arrAt_in 0 rfl _).trans (A_eq m c 0)),
     (h c 1).trans (((dats m 0 c).arrAt_in 1 rfl _).trans (A_eq m c 1))⟩) (run_main m ρ)

end Cert.KernelIdeal.Result

end
-- ==== Proof.RefEntry.lean ====
/-
  The reference program's result, read at an index, is the specification's entry.

  The reference computes, stage by stage: the two halves of the weight matrix as slices; the node features contracted
  with each half over the feature axis; both products broadcast to pairs of nodes (the first along the first node of
  the pair, the second along the second) and added; the bias row broadcast and added; the sum broadcast over the three
  direction components and multiplied by the direction components broadcast over the channels. Read at the index
  `(b, i, j, c, k)`, every broadcast and slice only renames the index, so what is left is the two sums, the bias and
  the direction component at the coordinates the specification writes.
-/
import proofs.«133521_j9955734192541_1_alg».proof.Proof.Spec
import proofs.«133521_j9955734192541_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.PairSpec.Ref

open Idealize.ShloMosaic Idealize.ShloMosaic.ValueIdx Cert.ReferenceIdeal

/-! ### The composed index maps at `ix5 b i j c k`

Each layout stage of the reference reads its operand at an index computed from the result's index. Followed from the
result index `(b, i, j, c, k)` back to the arguments, these compositions land on: row `(b, i, ·)` of the node
features for the first product and row `(b, j, ·)` for the second; column `k` of the upper and of the lower half
of the weight matrix; entry `(0, k)` of the bias row; entry `(b, i, j, c)` of the direction components. Every
equation is coordinate by coordinate and holds by computation. -/

/-- First product, left operand: the features of node `i` of graph `b`, at feature `f`. -/
theorem left_first (b : Fin 8) (i j : Fin 128) (c : Fin 3) (k f : Fin 128) :
    Read.lidx_main_v2 (Read.idx_main_v4 (Read.idx_main_v6 (Read.idx_main_v12 (Read.idx_main_v14 (ix5 b i j c k))))) f
      = ix3 b i f :=
  funext fun a => Fin.ext (by match a with | ⟨0, _⟩ => rfl | ⟨1, _⟩ => rfl | ⟨2, _⟩ => rfl)

/-- First product, right operand: the slice `[0:128, 0:128]` of the weight matrix at `(f, k)` is the whole
    matrix at row `f` of its upper half. -/
theorem right_first (b : Fin 8) (i j : Fin 128) (c : Fin 3) (k f : Fin 128) :
    Read.idx_main_v0
        (Read.ridx_main_v2 (Read.idx_main_v4 (Read.idx_main_v6 (Read.idx_main_v12 (Read.idx_main_v14 (ix5 b i j c k))))) f)
      = ix2 (upper f) k :=
  funext fun a => Fin.ext (by match a with | ⟨0, _⟩ => rfl | ⟨1, _⟩ => rfl)

/-- Second product, left operand: the features of node `j` of graph `b`, at feature `f`. -/
theorem left_second (b : Fin 8) (i j : Fin 128) (c : Fin 3) (k f : Fin 128) :
    Read.lidx_main_v3 (Read.idx_main_v5 (Read.idx_main_v7 (Read.idx_main_v12 (Read.idx_main_v14 (ix5 b i j c k))))) f
      = ix3 b j f :=
  funext fun a => Fin.ext (by match a with | ⟨0, _⟩ => rfl | ⟨1, _⟩ => rfl | ⟨2, _⟩ => rfl)

/-- Second product, right operand: the slice `[128:256, 0:128]` of the weight matrix at `(f, k)` is the whole
    matrix at row `128 + f`, row `f` of its lower half. -/
theorem right_second (b : Fin 8) (i j : Fin 128) (c : Fin 3) (k f : Fin 128) :
    Read.idx_main_v1
        (Read.ridx_main_v3 (Read.idx_main_v5 (Read.idx_main_v7 (Read.idx_main_v12 (Read.idx_main_v14 (ix5 b i j c k))))) f)
      = ix2 (lower f) k :=
  funext fun a => Fin.ext (by match a with | ⟨0, _⟩ => rfl | ⟨1, _⟩ => rfl)

/-- The bias, broadcast over graphs, both nodes and the direction component, is read at `(0, k)`. -/
theorem bias_at (b : Fin 8) (i j : Fin 128) (c : Fin 3) (k : Fin 128) :
    Read.idx_main_v9 (Read.idx_main_v10 (Read.idx_main_v12 (Read.idx_main_v14 (ix5 b i j c k))))
      = ix2 (0 : Fin 1) k :=
  funext fun a => Fin.ext (by match a with | ⟨0, _⟩ => rfl | ⟨1, _⟩ => rfl)

/-- The direction components, broadcast over the channel, are read at `(b, i, j, c)`. -/
theorem direction_at (b : Fin 8) (i j : Fin 128) (c : Fin 3) (k : Fin 128) :
    Read.idx_main_v13 (Read.idx_main_v15 (ix5 b i j c k)) = ix4 b i j c :=
  funext fun a => Fin.ext (by match a with | ⟨0, _⟩ => rfl | ⟨1, _⟩ => rfl | ⟨2, _⟩ => rfl | ⟨3, _⟩ => rfl)

/-- The reference's result at `(b, i, j, c, k)` is the specification's entry: reading the stages from the last
    one inwards leaves the two contractions over the feature axis, the bias and the direction component, each at the
    index the equations above name; addition and multiplication of the idealized floats are those of the extended
    reals, and the two additions are grouped as the specification groups them. -/
theorem ref_entry (x0 : (⟨S8x128x128, .f32⟩ : BufTy).Contents (Elt Ideal)) (x1 : (⟨S8x128x128x3, .f32⟩ : BufTy).Contents (Elt Ideal))
    (x2 : (⟨S256x128, .f32⟩ : BufTy).Contents (Elt Ideal)) (x3 : (⟨S1x128, .f32⟩ : BufTy).Contents (Elt Ideal))
    (b : Fin 8) (i j : Fin 128) (c : Fin 3) (k : Fin 128) :
    Cert.ReferenceIdeal.Read.val_main_v16 (F := Ideal) x0 x1 x2 x3 (ix5 b i j c k) = Cert.PairSpec.entry x0 x1 x2 x3 b i j c k := by
  unfold Cert.PairSpec.entry
  rw [Read.val_main_v16_apply, Read.val_main_v14_apply, Read.val_main_v12_apply, Read.val_main_v11_apply,
    Read.val_main_v8_apply, Read.val_main_v6_apply, Read.val_main_v4_apply, Read.val_main_v2_apply,
    Read.val_main_v7_apply, Read.val_main_v5_apply, Read.val_main_v3_apply, Read.val_main_v10_apply,
    Read.val_main_v9_apply, Read.val_main_v15_apply, Read.val_main_v13_apply]
  have h1 : (∑ f : Fin 128,
        x0 (Read.lidx_main_v2 (Read.idx_main_v4 (Read.idx_main_v6 (Read.idx_main_v12 (Read.idx_main_v14 (ix5 b i j c k))))) f) *
          Read.val_main_v0 (F := Ideal) x2
            (Read.ridx_main_v2 (Read.idx_main_v4 (Read.idx_main_v6 (Read.idx_main_v12 (Read.idx_main_v14 (ix5 b i j c k))))) f))
      = ∑ f : Fin 128, x0 (ix3 b i f) * x2 (ix2 (upper f) k) :=
    Finset.sum_congr rfl fun f _ => by rw [Read.val_main_v0_apply, left_first, right_first]
  have h2 : (∑ f : Fin 128,
        x0 (Read.lidx_main_v3 (Read.idx_main_v5 (Read.idx_main_v7 (Read.idx_main_v12 (Read.idx_main_v14 (ix5 b i j c k))))) f) *
          Read.val_main_v1 (F := Ideal) x2
            (Read.ridx_main_v3 (Read.idx_main_v5 (Read.idx_main_v7 (Read.idx_main_v12 (Read.idx_main_v14 (ix5 b i j c k))))) f))
      = ∑ f : Fin 128, x0 (ix3 b j f) * x2 (ix2 (lower f) k) :=
    Finset.sum_congr rfl fun f _ => by rw [Read.val_main_v1_apply, left_second, right_second]
  rw [h1, h2, bias_at, direction_at]
  rfl

end Cert.PairSpec.Ref

end
-- ==== Proof.lean ====
/-
  The proof of `Cert.Claim`: three frames, the (empty) idealization ledger, and the equality of results at the ideal
  instance.

  The kernel computes, per pair of nodes `i`, `j` of a graph and per channel `k`, the pair feature
  `(∑ f, h[i, f] · W[f, k]) + (∑ f, h[j, f] · W[128 + f, k]) + β[k]` — two matrix products against the two halves of the
  weight matrix, broadcast against each other and added to the bias — and scales it by each of the pair's three direction
  components. The reference does the same with whole-batch contractions. At the ideal instance a change of float format
  is the identity and a matrix product into a zero accumulator is the plain sum, so both sides are the SAME expression
  with the SAME grouping of the two additions (`Cert.PairSpec.features`): no algebraic law joins them beyond reading each
  product as its sum, and the precondition (finite inputs) is never opened.

  The kernel's region hands the node-feature array to two of its windows; its frame splits that array's ownership into
  two halves, one per window (Proof/LaunchK.lean, Proof/LaunchKI.lean). The kernel's result is read off that run block by
  block (Proof/ResultKI.lean, over Proof/PayEntry.lean); the reference's off its run, operation by operation
  (Proof/RefEntry.lean).
-/
import proofs.«133521_j9955734192541_1_alg».proof.Defs
import proofs.«133521_j9955734192541_1_alg».proof.Proof.Gen.Kernel
import proofs.«133521_j9955734192541_1_alg».proof.Proof.Gen.KernelIdeal
import proofs.«133521_j9955734192541_1_alg».proof.Proof.Gen.ReferenceIdeal
import proofs.«133521_j9955734192541_1_alg».proof.Proof.Gen.ReferenceIdeal.Run
import proofs.«133521_j9955734192541_1_alg».proof.Proof.Gen.ReferenceIdeal.Read
import proofs.«133521_j9955734192541_1_alg».proof.Proof.Gen.Pre_finite_inputs
import proofs.«133521_j9955734192541_1_alg».proof.Proof.Spec
import proofs.«133521_j9955734192541_1_alg».proof.Proof.LaunchK
import proofs.«133521_j9955734192541_1_alg».proof.Proof.ResultKI
import proofs.«133521_j9955734192541_1_alg».proof.Proof.RefEntry
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_kernel : Cert.frame_Kernel (hKernel := Cert.Kernel.Gen.facts) (hPre_finite_inputs := Cert.Pre_finite_inputs.Gen.facts) :=
  fun m ρ _ => Cert.Kernel.Region.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Region.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The two results are one function -/

/-- The reference's last stage, as a whole array, is the specification's `features` of its four arguments. -/
theorem reference_is_features (x0 : (⟨Cert.ReferenceIdeal.S8x128x128, .f32⟩ : BufTy).Contents (Elt Ideal))
    (x1 : (⟨Cert.ReferenceIdeal.S8x128x128x3, .f32⟩ : BufTy).Contents (Elt Ideal))
    (x2 : (⟨Cert.ReferenceIdeal.S256x128, .f32⟩ : BufTy).Contents (Elt Ideal))
    (x3 : (⟨Cert.ReferenceIdeal.S1x128, .f32⟩ : BufTy).Contents (Elt Ideal)) :
    Cert.ReferenceIdeal.Read.val_main_v16 (F := Ideal) x0 x1 x2 x3 = Cert.PairSpec.features x0 x1 x2 x3 :=
  funext fun y => by
    have h := Cert.PairSpec.Ref.ref_entry x0 x1 x2 x3 (y 0) (y 1) (y 2) (y 3) (y 4)
    have e : y = ix5 (n0 := 8) (n1 := 128) (n2 := 128) (n3 := 3) (n4 := 128) (y 0) (y 1) (y 2) (y 3) (y 4) :=
      funext fun a => by
        match a with
        | ⟨0, _⟩ => rfl
        | ⟨1, _⟩ => rfl
        | ⟨2, _⟩ => rfl
        | ⟨3, _⟩ => rfl
        | ⟨4, _⟩ => rfl
    exact (congrArg (Cert.ReferenceIdeal.Read.val_main_v16 (F := Ideal) x0 x1 x2 x3) e).trans h

/-- From memories agreeing on the arguments both programs run, and both results are `features` of the kernel's
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.whole m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, reference_is_features, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
